-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32 : Shape := ⟨1, ![32]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) (main_arg3 : IVec S32 32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32 : Shape := ⟨1, ![32]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S1 : Shape := ⟨1, ![1]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 10
  | .smem => 1
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .f32⟩
  | .hbm, ⟨4, _⟩ => ⟨S32x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | .local _ .vmem, ⟨8, _⟩ => ⟨S1x256x2048, .f32⟩
  | .local _ .vmem, ⟨9, _⟩ => ⟨S1x256x2048, .f32⟩
  | .local _ .smem, ⟨0, _⟩ => ⟨S32, .i32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  numel1_S1 : S1.numel = 1
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  iota_S256x2048_d1_w32 : S256x2048.Iotas .tc 32 [1]
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .f32 = 32 ∨ (Rect.block (s := S32x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S32x2048x64.size a
  hwx0_3 : ∀ i : grid0.Coords, EltTy.bits .f32 = 32 ∨ (Rect.block (s := S32x2048x64) S1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S32x2048x2048.size a
  hwx0_4 : ∀ i : grid0.Coords, EltTy.bits .f32 = 32 ∨ (Rect.block (s := S32x2048x2048) S1x256x2048.size (cc0_transform_4 i) (hinb0_4 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev spec0_0 : Pipeline.WinSpec sig grid0.rank :=
  Pipeline.WinSpec.ofSpec (Memref.whole main_arg0) S1x256x64.size reads0_0 false false 2 stage0_0 sem0_0 nbuf0_0 hstage0_0

abbrev spec0_1 : Pipeline.WinSpec sig grid0.rank :=
  Pipeline.WinSpec.ofSpec (Memref.whole main_arg1) S1x2048x64.size reads0_1 false false 2 stage0_1 sem0_1 nbuf0_1 hstage0_1

abbrev spec0_2 : Pipeline.WinSpec sig grid0.rank :=
  Pipeline.WinSpec.ofSpec (Memref.whole main_arg2) S1x2048x64.size reads0_2 false false 2 stage0_2 sem0_2 nbuf0_2 hstage0_2

abbrev spec0_3 : Pipeline.WinSpec sig grid0.rank :=
  Pipeline.WinSpec.ofSpec (Memref.whole main_v0_0) S1x256x64.size reads0_3 true false 2 stage0_3 sem0_3 nbuf0_3 hstage0_3

abbrev spec0_4 : Pipeline.WinSpec sig grid0.rank :=
  Pipeline.WinSpec.ofSpec (Memref.whole main_v0_1) S1x256x2048.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S32x2048x64 : Shape := ⟨3, ![32, 2048, 64]⟩
abbrev S32 : Shape := ⟨1, ![32]⟩
abbrev S32x2048x2048 : Shape := ⟨3, ![32, 2048, 2048]⟩
abbrev S_ : Shape := ⟨0, ![]⟩
abbrev S2048 : Shape := ⟨1, ![2048]⟩
abbrev S1x1x2048 : Shape := ⟨3, ![1, 1, 2048]⟩
abbrev S32x1x1 : Shape := ⟨3, ![32, 1, 1]⟩
abbrev S32x1x2048 : Shape := ⟨3, ![32, 1, 2048]⟩
abbrev S32x2048 : Shape := ⟨2, ![32, 2048]⟩
abbrev S32x2048x1 : Shape := ⟨3, ![32, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32, .i32⟩
  | .hbm, ⟨4, _⟩ => ⟨S32x2048x2048, .f32⟩
  | .hbm, ⟨5, _⟩ => ⟨S_, .f32⟩
  | .hbm, ⟨6, _⟩ => ⟨S_, .f32⟩
  | .hbm, ⟨7, _⟩ => ⟨S32x2048x2048, .f32⟩
  | .hbm, ⟨8, _⟩ => ⟨S32x2048x2048, .f32⟩
  | .hbm, ⟨9, _⟩ => ⟨S2048, .i32⟩
  | .hbm, ⟨10, _⟩ => ⟨S1x1x2048, .i32⟩
  | .hbm, ⟨11, _⟩ => ⟨S32x1x1, .i32⟩
  | .hbm, ⟨12, _⟩ => ⟨S32x1x2048, .i32⟩
  | .hbm, ⟨13, _⟩ => ⟨S32x1x2048, .i32⟩
  | .hbm, ⟨14, _⟩ => ⟨S32x1x2048, .i1⟩
  | .hbm, ⟨15, _⟩ => ⟨S_, .f32⟩
  | .hbm, ⟨16, _⟩ => ⟨S32x2048x2048, .i1⟩
  | .hbm, ⟨17, _⟩ => ⟨S32x2048x2048, .f32⟩
  | .hbm, ⟨18, _⟩ => ⟨S32x2048x2048, .f32⟩
  | .hbm, ⟨19, _⟩ => ⟨S_, .f32⟩
  | .hbm, ⟨20, _⟩ => ⟨S32x2048, .f32⟩
  | .hbm, ⟨21, _⟩ => ⟨S_, .f32⟩
  | .hbm, ⟨22, _⟩ => ⟨S32x2048, .f32⟩
  | .hbm, ⟨23, _⟩ => ⟨S32x2048, .f32⟩
  | .hbm, ⟨24, _⟩ => ⟨S32x2048x1, .f32⟩
  | .hbm, ⟨25, _⟩ => ⟨S32x2048x2048, .f32⟩
  | .hbm, ⟨26, _⟩ => ⟨S32x2048x2048, .f32⟩
  | .hbm, ⟨27, _⟩ => ⟨S32x2048x2048, .f32⟩
  | .hbm, ⟨28, _⟩ => ⟨S_, .f32⟩
  | .hbm, ⟨29, _⟩ => ⟨S32x2048, .f32⟩
  | .hbm, ⟨30, _⟩ => ⟨S32x2048x1, .f32⟩
  | .hbm, ⟨31, _⟩ => ⟨S32x2048x2048, .f32⟩
  | .hbm, ⟨32, _⟩ => ⟨S32x2048x2048, .f32⟩
  | .hbm, ⟨33, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  bcast_S2048_S1x1x2048_2 : S2048.BroadcastsInDim S1x1x2048 (![2] : Fin 1 → Fin S1x1x2048.rank)
  bcast_S32_S32x1x1_0 : S32.BroadcastsInDim S32x1x1 (![0] : Fin 1 → Fin S32x1x1.rank)
  bcast_S1x1x2048_S32x1x2048_0_1_2 : S1x1x2048.BroadcastsInDim S32x1x2048 (![0, 1, 2] : Fin 3 → Fin S32x1x2048.rank)
  bcast_S32x1x1_S32x1x2048_0_1_2 : S32x1x1.BroadcastsInDim S32x1x2048 (![0, 1, 2] : Fin 3 → Fin S32x1x2048.rank)
  bcast_S32x1x2048_S32x2048x2048_0_1_2 : S32x1x2048.BroadcastsInDim S32x2048x2048 (![0, 1, 2] : Fin 3 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Finite.lean ====
/-
  From the precondition (every float input finite) to: every entry of the queries and of the keys is a real number.
  The precondition is the conjunction of three "all entries have absolute value below +infinity" tests; the first
  two give the queries' and the keys' entries as reals.
-/
import proofs.«403861_j78494822301741_3_alg».proof.Pre_finite_inputs
import Idealize.ShloMosaic.PureOps.Ideal
import Idealize.ShloMosaic.Lib.ReduceAll

noncomputable section

namespace Attn.Finite

open Idealize.ShloMosaic

/-- A rank-0 result has exactly one index. -/
private instance : Subsingleton Cert.Pre_finite_inputs.S_.Idx := ⟨fun _ _ => funext fun d => d.elim0⟩

/-- The word 0x7F800000 is +infinity. -/
private theorem top_word : Ideal.ofBits .f32 0x7F800000#32 = (⊤ : EReal) := by
  simp [Ideal.ofBits, Ideal.ieee]

/-- An extended real whose absolute value max x (-x) is strictly below +infinity is a real number. -/
private theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- An array whose finiteness test "all |x| < +infinity" is 1 has real entries. -/
private theorem real_of_test [Cert.Pre_finite_inputs.Facts]
    (x : FVec Ideal Cert.Pre_finite_inputs.S32x2048x64 .f32) (j : Cert.Pre_finite_inputs.S_.Idx)
    (h : Host.reduce IntOp.andi
        (cmpf .olt (Host.absf x)
          (broadcastInDim Cert.Pre_finite_inputs.S32x2048x64 ![] Cert.Pre_finite_inputs.Facts.bcast_S_S32x2048x64
            (constant (F := Ideal) Cert.Pre_finite_inputs.S_ .f32 0x7F800000#32)))
        (constantI Cert.Pre_finite_inputs.S_ 1 1#1)
        Cert.Pre_finite_inputs.Facts.reducesTo_S32x2048x64_S_d0_1_2 Cert.Pre_finite_inputs.Facts.h_S_ j = 1#1) :
    ∀ i, ∃ r : ℝ, x i = (r : EReal) := by
  intro i
  have e := Host.reduce_andi_all _ _ _ _ _ h i
  apply real_of_abs_lt_top
  rw [← top_word]
  exact e

/-- Under the precondition the queries' and the keys' entries are real numbers. -/
theorem real_of_pre [Cert.Pre_finite_inputs.Facts]
    (x0 x1 x2 : FVec Ideal Cert.Pre_finite_inputs.S32x2048x64 .f32) (x3 : IVec Cert.Pre_finite_inputs.S32 32)
    (h : Cert.Pre_finite_inputs.fn (F := Ideal) x0 x1 x2 x3 = fun _ => 1#1) :
    (∀ i, ∃ r : ℝ, x0 i = (r : EReal)) ∧ (∀ i, ∃ r : ℝ, x1 i = (r : EReal)) := by
  have h' := congrFun h (fun a => a.elim0)
  dsimp only [Cert.Pre_finite_inputs.fn] at h'
  obtain ⟨h01, _⟩ := IntOp.andi_eq_one.1 h'
  obtain ⟨h0, h1⟩ := IntOp.andi_eq_one.1 h01
  exact ⟨real_of_test x0 _ h0, real_of_test x1 _ h1⟩

end Attn.Finite

end
-- ==== Proof.Spec.lean ====
/-
  The attention map both programs compute, as functions of the argument arrays over the extended reals.

  For a batch `b`, a query row `q` and a key position `k`:
    score b q k   = sum over d of (Q[b,q,d] * 1/8) * K[b,k,d]           (1/8 = 1/sqrt 64, the word 0x3E000000)
    masked b q k  = score b q k  if k < len[b] (signed 32-bit compare), else the fill -1e6 (the word 0xC9742400)
    rowMax f      = the maximum of f over the 2048 key positions, folded from -infinity
    softmaxRow f k = exp (f k - rowMax f) / sum over k' of exp (f k' - rowMax f)
    weights[b,q,k] = softmaxRow (masked b q) k
    output[b,q,d]  = sum over k of weights[b,q,k] * V[b,k,d]
  The literals stay as their words: the same word on both sides is never evaluated.
-/
import Idealize.ShloMosaic.PureOps.Ideal
import Idealize.ShloMosaic.Lib.ValueIdx

noncomputable section

namespace Attn

open Idealize.ShloMosaic Idealize.ShloMosaic.ValueIdx

/-- The shape of queries, keys, values and the output: batch, position, feature. -/
abbrev SQ : Shape := ⟨3, ![32, 2048, 64]⟩
/-- The shape of the attention weights: batch, query position, key position. -/
abbrev SW : Shape := ⟨3, ![32, 2048, 2048]⟩
/-- The shape of the valid lengths: one per batch. -/
abbrev SL : Shape := ⟨1, ![32]⟩

/-- The value -infinity, the start of a row maximum. -/
abbrev negInf : EReal := Ideal.ofBits .f32 0xFF800000#32
/-- The fill value -1e6 of a masked key position. -/
abbrev fill : EReal := Ideal.ofBits .f32 0xC9742400#32
/-- The scale 1/8 = 1/sqrt 64. -/
abbrev eighth : EReal := Ideal.ofBits .f32 0x3E000000#32

/-- The maximum of a row over its 2048 key positions, from -infinity. -/
def rowMax (f : Fin 2048 → EReal) : EReal := (Finset.univ : Finset (Fin 2048)).fold max negInf f

/-- The softmax of a row at key position `k`: the shifted exponential over the row's sum of them. -/
def softmaxRow (f : Fin 2048 → EReal) (k : Fin 2048) : EReal :=
  Ideal.div (Ideal.exp (f k - rowMax f)) (∑ k' : Fin 2048, Ideal.exp (f k' - rowMax f))

/-- A row of scores with the key positions at or beyond the valid length (signed compare) replaced by the fill. -/
def maskedRow (s : Fin 2048 → EReal) (len : BitVec 32) (k : Fin 2048) : EReal :=
  Scalar.select (IntOp.cmpi .slt (BitVec.ofNat 32 k.val) len) (s k) fill

/-- The scaled dot product of query row `q` and key row `k` of batch `b`, the scale applied to the query entry. -/
def score (Q K : SQ.Idx → EReal) (b : Fin 32) (q k : Fin 2048) : EReal :=
  ∑ d : Fin 64, (Q (ix3 b q d) * eighth) * K (ix3 b k d)

/-- The attention weights at (b, q, k). -/
def weightsAt (Q K : SQ.Idx → EReal) (L : SL.Idx → BitVec 32) (b : Fin 32) (q k : Fin 2048) : EReal :=
  softmaxRow (maskedRow (score Q K b q) (L (ix1 b))) k

/-- The attention output at (b, q, d). -/
def outputAt (Q K V : SQ.Idx → EReal) (L : SL.Idx → BitVec 32) (b : Fin 32) (q : Fin 2048) (d : Fin 64) : EReal :=
  ∑ k : Fin 2048, weightsAt Q K L b q k * V (ix3 b k d)

/-- The attention weights as a whole array. -/
def weights (Q K : SQ.Idx → EReal) (L : SL.Idx → BitVec 32) : SW.Idx → EReal :=
  fun i => weightsAt Q K L (i 0) (i 1) (i 2)

/-- The attention output as a whole array. -/
def output (Q K V : SQ.Idx → EReal) (L : SL.Idx → BitVec 32) : SQ.Idx → EReal :=
  fun i => outputAt Q K V L (i 0) (i 1) (i 2)

theorem weights_ix3 (Q K : SQ.Idx → EReal) (L : SL.Idx → BitVec 32) (b : Fin 32) (q k : Fin 2048) :
    weights Q K L (ix3 b q k) = weightsAt Q K L b q k := rfl

theorem output_ix3 (Q K V : SQ.Idx → EReal) (L : SL.Idx → BitVec 32) (b : Fin 32) (q : Fin 2048) (d : Fin 64) :
    output Q K V L (ix3 b q d) = outputAt Q K V L b q d := rfl

end Attn

end
-- ==== Proof.RefSide.lean ====
/-
  The reference computes the attention map of the specification: its weights result is `Attn.weights` and its
  output result is `Attn.output` of the argument arrays, when the queries' and keys' entries are real numbers.
-/
import proofs.«403861_j78494822301741_3_alg».proof.Proof.Gen.ReferenceIdeal.Read
import proofs.«403861_j78494822301741_3_alg».proof.Proof.Spec

noncomputable section

namespace Attn.Ref

open Idealize.ShloMosaic Cert.ReferenceIdeal Cert.ReferenceIdeal.Read

/-- The word 0x42800000 is the real number 64. -/
private theorem word_64 : Ideal.ofBits .f32 0x42800000#32 = ((64 : ℝ) : EReal) := by
  simp [Ideal.ofBits, Ideal.ieee, -EReal.coe_mul]; norm_num

/-- The word 0x3E000000 is the real number 1/8. -/
private theorem word_eighth : Ideal.ofBits .f32 0x3E000000#32 = ((1 / 8 : ℝ) : EReal) := by
  simp [Ideal.ofBits, Ideal.ieee, -EReal.coe_mul]; norm_num

/-- The word 0xFF800000 is the bottom of the extended reals. -/
private theorem word_negInf : Ideal.ofBits .f32 0xFF800000#32 = ⊥ := by
  simp [Ideal.ofBits, Ideal.ieee]

/-- The square root of 64 is 8. -/
private theorem sqrt_64 : Real.sqrt 64 = 8 := by
  rw [show (64 : ℝ) = 8 ^ 2 by norm_num]; exact Real.sqrt_sq (by norm_num)

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The one law: a sum of products of reals divided by the square root of 64 is the sum with each left factor
    scaled by 1/8. -/
private theorem scale_law (f g : Fin 64 → ℝ) :
    Ideal.div (∑ d : Fin 64, (f d : EReal) * (g d : EReal)) (Ideal.sqrt (Ideal.ofBits .f32 0x42800000#32))
      = ∑ d : Fin 64, ((f d : EReal) * Attn.eighth) * (g d : EReal) := by
  have hs : Ideal.sqrt (Ideal.ofBits .f32 0x42800000#32) = ((8 : ℝ) : EReal) := by
    rw [word_64, Ideal.sqrt_coe, if_neg (by norm_num), sqrt_64]
  rw [hs, Ideal.div_coe (by norm_num : (8 : ℝ) ≠ 0)]
  show _ = ∑ d : Fin 64, ((f d : EReal) * Ideal.ofBits .f32 0x3E000000#32) * (g d : EReal)
  rw [word_eighth]
  simp only [← EReal.coe_mul, ← coe_sum]
  refine congrArg _ ?_
  rw [Finset.sum_mul]
  exact Finset.sum_congr rfl fun d _ => by ring

/-- The masked score row: the reference's quotient of the dot product by the square root of 64, selected against the
    fill where the key position is at or beyond the valid length, is the specification's masked row of scaled scores.
    The entries of the queries and keys are real, so the quotient by 8 moves inside the sum onto the query entry. -/
private theorem v10_eq (x0 x1 : (⟨S32x2048x64, .f32⟩ : BufTy).Contents (Elt Ideal)) (x3 : (⟨S32, .i32⟩ : BufTy).Contents (Elt Ideal))
    (h0 : ∀ i, ∃ r : ℝ, x0 i = (r : EReal)) (h1 : ∀ i, ∃ r : ℝ, x1 i = (r : EReal)) (b : Fin 32) (q k : Fin 2048) :
    val_main_v10 (F := Ideal) x0 x1 x3 (ValueIdx.ix3 b q k)
      = Attn.maskedRow (Attn.score x0 x1 b q) (x3 (ValueIdx.ix1 b)) k := by
  choose f hf using h0
  choose g hg using h1
  rw [val_main_v10_apply, val_main_call0_v0_apply, val_main_v9_apply, val_main_v7_apply, val_main_v5_apply,
    val_main_v4_apply, val_main_v8_apply, val_main_v6_apply, val_main_call0_v1_apply, val_main_cst_0_apply,
    val_main_v3_apply, val_main_v0_apply, val_main_v2_apply, val_main_v1_apply, val_main_cst_apply]
  unfold Attn.maskedRow Attn.score
  have e1 : (idx_main_v5 (idx_main_v7 (idx_main_call0_v0 (ValueIdx.ix3 b q k))) 0).val = k.val := rfl
  have e2 : idx_main_v6 (idx_main_v8 (idx_main_call0_v0 (ValueIdx.ix3 b q k))) = ValueIdx.ix1 b :=
    funext fun a => Fin.ext (by match a with | ⟨0, _⟩ => rfl)
  have el : ∀ d : Fin 64, lidx_main_v0 (ValueIdx.ix3 b q k) d = ValueIdx.ix3 b q d := fun d =>
    funext fun a => Fin.ext (by match a with | ⟨0, _⟩ => rfl | ⟨1, _⟩ => rfl | ⟨2, _⟩ => rfl)
  have er : ∀ d : Fin 64, ridx_main_v0 (ValueIdx.ix3 b q k) d = ValueIdx.ix3 b k d := fun d =>
    funext fun a => Fin.ext (by match a with | ⟨0, _⟩ => rfl | ⟨1, _⟩ => rfl | ⟨2, _⟩ => rfl)
  rw [e1, e2]
  simp only [el, er, hf, hg, Ideal.hostDivf_def, Ideal.hostUnary_sqrt_def, Ideal.ofBits_def]
  rw [scale_law (fun d => f (ValueIdx.ix3 b q d)) (fun d => g (ValueIdx.ix3 b k d))]

/-- The row maximum: the fold of the maximum from -infinity over the 2048 key positions of the masked score row, and
    the further maximum against -infinity, which is the identity since -infinity is the bottom. -/
private theorem v13_eq (x0 x1 : (⟨S32x2048x64, .f32⟩ : BufTy).Contents (Elt Ideal)) (x3 : (⟨S32, .i32⟩ : BufTy).Contents (Elt Ideal))
    (h0 : ∀ i, ∃ r : ℝ, x0 i = (r : EReal)) (h1 : ∀ i, ∃ r : ℝ, x1 i = (r : EReal)) (b : Fin 32) (q : Fin 2048) :
    val_main_v13 (F := Ideal) x0 x1 x3 (ValueIdx.ix2 b q)
      = Attn.rowMax (Attn.maskedRow (Attn.score x0 x1 b q) (x3 (ValueIdx.ix1 b))) := by
  have h : S32x2048x2048.Reduces [2] S32x2048 := by decide
  rw [val_main_v13_apply, val_main_v12_apply, val_main_cst_2_apply]
  unfold val_main_v11
  rw [Host.reduce_eq_fold_single (FloatOps.maximumf (F := Ideal)) _ _ _ h, Ideal.maximumf_def, Ideal.ofBits_def,
    word_negInf, max_eq_right bot_le]
  have hrow : val_main_v10 (F := Ideal) x0 x1 x3 ∘ h.lift (ValueIdx.ix2 b q)
      = Attn.maskedRow (Attn.score x0 x1 b q) (x3 (ValueIdx.ix1 b)) := funext fun k => by
    have hk : h.lift (ValueIdx.ix2 b q) k = ValueIdx.ix3 b q k :=
      funext fun a => Fin.ext (by match a with | ⟨0, _⟩ => rfl | ⟨1, _⟩ => rfl | ⟨2, _⟩ => rfl)
    exact (congrArg (val_main_v10 (F := Ideal) x0 x1 x3) hk).trans (v10_eq x0 x1 x3 h0 h1 b q k)
  rw [hrow]
  rfl

/-- The shifted exponential of the masked score row. -/
private theorem v17_eq (x0 x1 : (⟨S32x2048x64, .f32⟩ : BufTy).Contents (Elt Ideal)) (x3 : (⟨S32, .i32⟩ : BufTy).Contents (Elt Ideal))
    (h0 : ∀ i, ∃ r : ℝ, x0 i = (r : EReal)) (h1 : ∀ i, ∃ r : ℝ, x1 i = (r : EReal)) (b : Fin 32) (q k : Fin 2048) :
    val_main_v17 (F := Ideal) x0 x1 x3 (ValueIdx.ix3 b q k)
      = Ideal.exp (Attn.maskedRow (Attn.score x0 x1 b q) (x3 (ValueIdx.ix1 b)) k
          - Attn.rowMax (Attn.maskedRow (Attn.score x0 x1 b q) (x3 (ValueIdx.ix1 b)))) := by
  have e : idx_main_v14 (idx_main_v15 (ValueIdx.ix3 b q k)) = ValueIdx.ix2 b q :=
    funext fun a => Fin.ext (by match a with | ⟨0, _⟩ => rfl | ⟨1, _⟩ => rfl)
  rw [val_main_v17_apply, val_main_v16_apply, val_main_v15_apply, val_main_v14_apply, e,
    v10_eq x0 x1 x3 h0 h1, v13_eq x0 x1 x3 h0 h1]
  rfl

/-- The sum of the shifted exponentials over a row. -/
private theorem v18_eq (x0 x1 : (⟨S32x2048x64, .f32⟩ : BufTy).Contents (Elt Ideal)) (x3 : (⟨S32, .i32⟩ : BufTy).Contents (Elt Ideal))
    (h0 : ∀ i, ∃ r : ℝ, x0 i = (r : EReal)) (h1 : ∀ i, ∃ r : ℝ, x1 i = (r : EReal)) (b : Fin 32) (q : Fin 2048) :
    val_main_v18 (F := Ideal) x0 x1 x3 (ValueIdx.ix2 b q)
      = ∑ k' : Fin 2048, Ideal.exp (Attn.maskedRow (Attn.score x0 x1 b q) (x3 (ValueIdx.ix1 b)) k'
          - Attn.rowMax (Attn.maskedRow (Attn.score x0 x1 b q) (x3 (ValueIdx.ix1 b)))) := by
  rw [val_main_v18_apply, val_main_cst_3_apply, Ideal.ofBits_def, Ideal.ofBits_zero_f32, zero_add]
  refine Finset.sum_congr rfl fun k _ => ?_
  have e : idx_main_v18 (ValueIdx.ix2 b q) k = ValueIdx.ix3 b q k :=
    funext fun a => Fin.ext (by match a with | ⟨0, _⟩ => rfl | ⟨1, _⟩ => rfl | ⟨2, _⟩ => rfl)
  rw [e, v17_eq x0 x1 x3 h0 h1]

/-- The reference's attention weights are the specification's. -/
theorem ref_weights (x0 x1 : (⟨S32x2048x64, .f32⟩ : BufTy).Contents (Elt Ideal)) (x3 : (⟨S32, .i32⟩ : BufTy).Contents (Elt Ideal))
    (h0 : ∀ i, ∃ r : ℝ, x0 i = (r : EReal)) (h1 : ∀ i, ∃ r : ℝ, x1 i = (r : EReal)) :
    val_main_v21 (F := Ideal) x0 x1 x3 = Attn.weights x0 x1 x3 := by
  funext i
  obtain ⟨b, q, k, rfl⟩ : ∃ (b : Fin 32) (q k : Fin 2048), i = ValueIdx.ix3 b q k :=
    ⟨i 0, i 1, i 2, ValueIdx.eq_ix3 i⟩
  have e : idx_main_v19 (idx_main_v20 (ValueIdx.ix3 b q k)) = ValueIdx.ix2 b q :=
    funext fun a => Fin.ext (by match a with | ⟨0, _⟩ => rfl | ⟨1, _⟩ => rfl)
  rw [Attn.weights_ix3, val_main_v21_apply, val_main_v20_apply, val_main_v19_apply, e,
    v17_eq x0 x1 x3 h0 h1, v18_eq x0 x1 x3 h0 h1]
  rfl

/-- The reference's attention output is the specification's. -/
theorem ref_output (x0 x1 x2 : (⟨S32x2048x64, .f32⟩ : BufTy).Contents (Elt Ideal)) (x3 : (⟨S32, .i32⟩ : BufTy).Contents (Elt Ideal))
    (h0 : ∀ i, ∃ r : ℝ, x0 i = (r : EReal)) (h1 : ∀ i, ∃ r : ℝ, x1 i = (r : EReal)) :
    val_main_v22 (F := Ideal) x0 x1 x2 x3 = Attn.output x0 x1 x2 x3 := by
  funext i
  obtain ⟨b, q, d, rfl⟩ : ∃ (b : Fin 32) (q : Fin 2048) (d : Fin 64), i = ValueIdx.ix3 b q d :=
    ⟨i 0, i 1, i 2, ValueIdx.eq_ix3 i⟩
  rw [Attn.output_ix3, val_main_v22_apply, ref_weights x0 x1 x3 h0 h1]
  unfold Attn.outputAt
  refine Finset.sum_congr rfl fun k _ => ?_
  have el : lidx_main_v22 (ValueIdx.ix3 b q d) k = ValueIdx.ix3 b q k :=
    funext fun a => Fin.ext (by match a with | ⟨0, _⟩ => rfl | ⟨1, _⟩ => rfl | ⟨2, _⟩ => rfl)
  have er : ridx_main_v22 (ValueIdx.ix3 b q d) k = ValueIdx.ix3 b k d :=
    funext fun a => Fin.ext (by match a with | ⟨0, _⟩ => rfl | ⟨1, _⟩ => rfl | ⟨2, _⟩ => rfl)
  rw [el, er, Attn.weights_ix3]

end Attn.Ref

end
-- ==== Proof.Body.lean ====
/-
  The kernel body's arithmetic at an index. For one grid point the body holds a block of 256 query rows, the
  batch's 2048 key rows and value rows, and the batch's valid length; its weights block at (r, k) is the softmax of
  the masked scaled scores of query row r, and its output block at (r, d) is the weights' row r against column d of
  the values.
-/
import proofs.«403861_j78494822301741_3_alg».proof.Proof.Gen.KernelIdeal.Skeleton
import proofs.«403861_j78494822301741_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Attn.Body

open Idealize.ShloMosaic Idealize.ShloMosaic.ValueIdx Cert.KernelIdeal Cert.KernelIdeal.Gen

/-- The scaled scores of query row `r` of a block against the key rows. -/
def blockScore (x0 : Vec Ideal S1x256x64 .f32) (x1 : Vec Ideal S1x2048x64 .f32) (r : Fin 256) (k : Fin 2048) : EReal :=
  ∑ d : Fin 64, (x0 (ix3 0 r d) * Attn.eighth) * x1 (ix3 0 k d)

/-! ## The column casts: a vector as a column, and a column spread over the lanes -/

/-- An `[a]` array cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of 256 entries, cast to a column and spread over 2048 lanes, reads its entry `r` at `(r, k)`. -/
private theorem keepdims_apply {α : Type} (v : S256.Idx → α) (r : Fin 256) (k : Fin 2048) :
    broadcastTo S256x2048 (shapeCast S256x1 v shapeCasts_S256_S256x1) broadcasts_S256x1_S256x2048 (ix2 r k) = v (ix1 r) :=
  (broadcastTo_a1_ab_apply _ broadcasts_S256x1_S256x2048 r k).trans (shapeCast_a_a1_apply v shapeCasts_S256_S256x1 r 0)

/-! ## The lane reductions of a 256 by 2048 block -/

/-- The lane maximum of row `r`: the fold of `max` from minus infinity over the row. -/
private theorem laneMax_apply (src : FVec Ideal S256x2048 .f32) (h : S256x2048.Reduces [1] S256) (hφ : FKind.Formats .f32)
    (hacc : (0xFF800000#32 : BitVec 32) = 0xFF800000#32) (r : Fin 256) :
    multiReduction .maximumf [1] S256 src 0xFF800000#32 h hφ hacc (ix1 r)
      = (Finset.univ : Finset (Fin 2048)).fold max (Ideal.ofBits .f32 0xFF800000#32) (fun k => src (ix2 r k)) := by
  refine (Ideal.multiReduction_maximumf_single src 0xFF800000#32 h hφ hacc (ix1 r)).trans ?_
  have e : (src ∘ h.lift (ix1 r) : Fin 2048 → EReal) = fun k => src (ix2 r k) :=
    funext fun k => congrArg src (funext fun c => Fin.ext (by match c with | ⟨0, _⟩ => rfl | ⟨1, _⟩ => rfl))
  exact congrArg (fun g : Fin 2048 → EReal => Finset.fold max (Ideal.ofBits .f32 0xFF800000#32) g Finset.univ) e

/-- The lane sum of row `r`. -/
private theorem laneSum_apply (src : FVec Ideal S256x2048 .f32) (h : S256x2048.Reduces [1] S256) (hφ : FKind.Formats .f32)
    (hacc : (0x00000000#32 : BitVec 32) = 0x00000000#32) (r : Fin 256) :
    multiReduction .add [1] S256 src 0x00000000#32 h hφ hacc (ix1 r) = ∑ k : Fin 2048, src (ix2 r k) := by
  refine (Ideal.multiReduction_add_single src 0x00000000#32 h hφ hacc (ix1 r)).trans ?_
  refine Finset.sum_congr rfl fun k _ => ?_
  exact congrArg src (funext fun c => Fin.ext (by match c with | ⟨0, _⟩ => rfl | ⟨1, _⟩ => rfl))

/-! ## The iota along the lanes -/

/-- The lane iota of a 256 by 2048 block reads its key position. -/
private theorem laneIota_apply (h : S256x2048.Iotas .tc 32 [1]) (r : Fin 256) (k : Fin 2048) :
    iota .tc S256x2048 32 [1] h (ix2 r k) = BitVec.ofNat 32 k.val :=
  iota_single_apply .tc S256x2048 32 1 h (ix2 r k)

/-! ## The two contractions

The scores contract the feature axis of the query block with the feature axis of the key block; the output contracts
the key axis of the weights with the key axis of the value block. -/

private theorem lhs_scores_0 (i : S256x2048.Idx) (q : Cert.KernelIdeal.dot_S256x64_S2048x64_S256x2048_1_1_0_0_n_n.contr.Idx) :
    (Cert.KernelIdeal.dot_S256x64_S2048x64_S256x2048_1_1_0_0_n_n.lhsIdx i q 0).val = (i 0).val := by
  unfold DotDims.lhsIdx
  rw [dif_neg (show ¬(0 : Fin S256x64.rank) ∈ Cert.KernelIdeal.dot_S256x64_S2048x64_S256x2048_1_1_0_0_n_n.lhsBatch by decide), dif_pos (show (0 : Fin S256x64.rank) ∈ Cert.KernelIdeal.dot_S256x64_S2048x64_S256x2048_1_1_0_0_n_n.lhsNonContracting by decide)]
  rfl
private theorem lhs_scores_1 (i : S256x2048.Idx) (q : Cert.KernelIdeal.dot_S256x64_S2048x64_S256x2048_1_1_0_0_n_n.contr.Idx) :
    (Cert.KernelIdeal.dot_S256x64_S2048x64_S256x2048_1_1_0_0_n_n.lhsIdx i q 1).val = (q ⟨0, by decide⟩).val :=
  Cert.KernelIdeal.dot_S256x64_S2048x64_S256x2048_1_1_0_0_n_n.lhsIdx_val_of_single rfl i q
private theorem rhs_scores_0 (i : S256x2048.Idx) (q : Cert.KernelIdeal.dot_S256x64_S2048x64_S256x2048_1_1_0_0_n_n.contr.Idx) :
    (Cert.KernelIdeal.dot_S256x64_S2048x64_S256x2048_1_1_0_0_n_n.rhsIdx i q 0).val = (i 1).val := by
  unfold DotDims.rhsIdx
  rw [dif_neg (show ¬(0 : Fin S2048x64.rank) ∈ Cert.KernelIdeal.dot_S256x64_S2048x64_S256x2048_1_1_0_0_n_n.rhsBatch by decide), dif_pos (show (0 : Fin S2048x64.rank) ∈ Cert.KernelIdeal.dot_S256x64_S2048x64_S256x2048_1_1_0_0_n_n.rhsNonContracting by decide)]
  rfl
private theorem rhs_scores_1 (i : S256x2048.Idx) (q : Cert.KernelIdeal.dot_S256x64_S2048x64_S256x2048_1_1_0_0_n_n.contr.Idx) :
    (Cert.KernelIdeal.dot_S256x64_S2048x64_S256x2048_1_1_0_0_n_n.rhsIdx i q 1).val = (q ⟨0, by decide⟩).val :=
  Cert.KernelIdeal.dot_S256x64_S2048x64_S256x2048_1_1_0_0_n_n.rhsIdx_val_of_single rfl i q

/-- The scores' contraction at (r, k): the sum over the 64 features of the left row r against the right row k. -/
private theorem scores_apply (a : FVec Ideal S256x64 .bf16) (b : FVec Ideal S2048x64 .bf16) (r : Fin 256) (k : Fin 2048) :
    matmul Cert.KernelIdeal.dot_S256x64_S2048x64_S256x2048_1_1_0_0_n_n none a b (constant (F := Ideal) S256x2048 .f32 0x00000000#32) (ix2 r k)
      = ∑ d : Fin 64, a (ix2 r d) * b (ix2 k d) := by
  refine (Ideal.matmul_constant_zero_apply Cert.KernelIdeal.dot_S256x64_S2048x64_S256x2048_1_1_0_0_n_n none a b (ix2 r k)).trans ?_
  rw [← Equiv.sum_comp (ValueIdx.contrEquiv1 Cert.KernelIdeal.dot_S256x64_S2048x64_S256x2048_1_1_0_0_n_n 64 rfl rfl).symm]
  refine Finset.sum_congr rfl fun d _ => ?_
  have hk := ValueIdx.contrEquiv1_symm_val Cert.KernelIdeal.dot_S256x64_S2048x64_S256x2048_1_1_0_0_n_n 64 rfl rfl d
  have el : Cert.KernelIdeal.dot_S256x64_S2048x64_S256x2048_1_1_0_0_n_n.lhsIdx (ix2 r k) ((ValueIdx.contrEquiv1 Cert.KernelIdeal.dot_S256x64_S2048x64_S256x2048_1_1_0_0_n_n 64 rfl rfl).symm d) = ix2 r d := funext fun c => Fin.ext (by
    match c with
    | ⟨0, _⟩ => exact lhs_scores_0 _ _
    | ⟨1, _⟩ => exact (lhs_scores_1 _ _).trans hk)
  have er : Cert.KernelIdeal.dot_S256x64_S2048x64_S256x2048_1_1_0_0_n_n.rhsIdx (ix2 r k) ((ValueIdx.contrEquiv1 Cert.KernelIdeal.dot_S256x64_S2048x64_S256x2048_1_1_0_0_n_n 64 rfl rfl).symm d) = ix2 k d := funext fun c => Fin.ext (by
    match c with
    | ⟨0, _⟩ => exact rhs_scores_0 _ _
    | ⟨1, _⟩ => exact (rhs_scores_1 _ _).trans hk)
  rw [el, er]

private theorem lhs_out_0 (i : S256x64.Idx) (q : Cert.KernelIdeal.dot_S256x2048_S2048x64_S256x64_1_0_0_1_n_n.contr.Idx) :
    (Cert.KernelIdeal.dot_S256x2048_S2048x64_S256x64_1_0_0_1_n_n.lhsIdx i q 0).val = (i 0).val := by
  unfold DotDims.lhsIdx
  rw [dif_neg (show ¬(0 : Fin S256x2048.rank) ∈ Cert.KernelIdeal.dot_S256x2048_S2048x64_S256x64_1_0_0_1_n_n.lhsBatch by decide), dif_pos (show (0 : Fin S256x2048.rank) ∈ Cert.KernelIdeal.dot_S256x2048_S2048x64_S256x64_1_0_0_1_n_n.lhsNonContracting by decide)]
  rfl
private theorem lhs_out_1 (i : S256x64.Idx) (q : Cert.KernelIdeal.dot_S256x2048_S2048x64_S256x64_1_0_0_1_n_n.contr.Idx) :
    (Cert.KernelIdeal.dot_S256x2048_S2048x64_S256x64_1_0_0_1_n_n.lhsIdx i q 1).val = (q ⟨0, by decide⟩).val :=
  Cert.KernelIdeal.dot_S256x2048_S2048x64_S256x64_1_0_0_1_n_n.lhsIdx_val_of_single rfl i q
private theorem rhs_out_0 (i : S256x64.Idx) (q : Cert.KernelIdeal.dot_S256x2048_S2048x64_S256x64_1_0_0_1_n_n.contr.Idx) :
    (Cert.KernelIdeal.dot_S256x2048_S2048x64_S256x64_1_0_0_1_n_n.rhsIdx i q 0).val = (q ⟨0, by decide⟩).val :=
  Cert.KernelIdeal.dot_S256x2048_S2048x64_S256x64_1_0_0_1_n_n.rhsIdx_val_of_single rfl i q
private theorem rhs_out_1 (i : S256x64.Idx) (q : Cert.KernelIdeal.dot_S256x2048_S2048x64_S256x64_1_0_0_1_n_n.contr.Idx) :
    (Cert.KernelIdeal.dot_S256x2048_S2048x64_S256x64_1_0_0_1_n_n.rhsIdx i q 1).val = (i 1).val := by
  unfold DotDims.rhsIdx
  rw [dif_neg (show ¬(1 : Fin S2048x64.rank) ∈ Cert.KernelIdeal.dot_S256x2048_S2048x64_S256x64_1_0_0_1_n_n.rhsBatch by decide), dif_pos (show (1 : Fin S2048x64.rank) ∈ Cert.KernelIdeal.dot_S256x2048_S2048x64_S256x64_1_0_0_1_n_n.rhsNonContracting by decide)]
  rfl

/-- The output's contraction at (r, d): the sum over the 2048 key positions of the left row r against the right column d. -/
private theorem out_apply (a : FVec Ideal S256x2048 .bf16) (b : FVec Ideal S2048x64 .bf16) (r : Fin 256) (d : Fin 64) :
    matmul Cert.KernelIdeal.dot_S256x2048_S2048x64_S256x64_1_0_0_1_n_n none a b (constant (F := Ideal) S256x64 .f32 0x00000000#32) (ix2 r d)
      = ∑ k : Fin 2048, a (ix2 r k) * b (ix2 k d) := by
  refine (Ideal.matmul_constant_zero_apply Cert.KernelIdeal.dot_S256x2048_S2048x64_S256x64_1_0_0_1_n_n none a b (ix2 r d)).trans ?_
  rw [← Equiv.sum_comp (ValueIdx.contrEquiv1 Cert.KernelIdeal.dot_S256x2048_S2048x64_S256x64_1_0_0_1_n_n 2048 rfl rfl).symm]
  refine Finset.sum_congr rfl fun k _ => ?_
  have hk := ValueIdx.contrEquiv1_symm_val Cert.KernelIdeal.dot_S256x2048_S2048x64_S256x64_1_0_0_1_n_n 2048 rfl rfl k
  have el : Cert.KernelIdeal.dot_S256x2048_S2048x64_S256x64_1_0_0_1_n_n.lhsIdx (ix2 r d) ((ValueIdx.contrEquiv1 Cert.KernelIdeal.dot_S256x2048_S2048x64_S256x64_1_0_0_1_n_n 2048 rfl rfl).symm k) = ix2 r k := funext fun c => Fin.ext (by
    match c with
    | ⟨0, _⟩ => exact lhs_out_0 _ _
    | ⟨1, _⟩ => exact (lhs_out_1 _ _).trans hk)
  have er : Cert.KernelIdeal.dot_S256x2048_S2048x64_S256x64_1_0_0_1_n_n.rhsIdx (ix2 r d) ((ValueIdx.contrEquiv1 Cert.KernelIdeal.dot_S256x2048_S2048x64_S256x64_1_0_0_1_n_n 2048 rfl rfl).symm k) = ix2 k d := funext fun c => Fin.ext (by
    match c with
    | ⟨0, _⟩ => exact (rhs_out_0 _ _).trans hk
    | ⟨1, _⟩ => exact rhs_out_1 _ _)
  rw [el, er]

/-! ## The body's terms

The block of masked scaled scores and the block of shifted exponentials, as terms over the loaded values: the body's
weights are the second over its lane sums. -/

/-- The masked scaled scores of the block: the scores where the key position is below the valid length, the fill elsewhere. -/
private def maskedBlock (v1 : Elt Ideal .i32) (x0 : Vec Ideal S1x256x64 .f32) (x1 : Vec Ideal S1x2048x64 .f32) : FVec Ideal S256x2048 .f32 :=
  select (cmpi .slt (iota .tc S256x2048 32 [1] iota_S256x2048_d1_w32) (broadcast S256x2048 v1))
    (matmul Cert.KernelIdeal.dot_S256x64_S2048x64_S256x2048_1_1_0_0_n_n none
      (truncf .bf16 (mulf (shapeCast S256x64 x0 shapeCasts_S1x256x64_S256x64) (broadcast S256x64 (Scalar.ofBits .f32 0x3E000000#32))) bitsLt_bf16_f32)
      (truncf .bf16 (shapeCast S2048x64 x1 shapeCasts_S1x2048x64_S2048x64) bitsLt_bf16_f32)
      (constant S256x2048 .f32 0x00000000#32))
    (broadcast S256x2048 (Scalar.ofBits .f32 0xC9742400#32))

/-- The masked scaled scores at (r, k). -/
private theorem maskedBlock_apply (v1 : Elt Ideal .i32) (x0 : Vec Ideal S1x256x64 .f32) (x1 : Vec Ideal S1x2048x64 .f32) (r : Fin 256) (k : Fin 2048) :
    maskedBlock v1 x0 x1 (ix2 r k) = Attn.maskedRow (blockScore x0 x1 r) v1 k := by
  have hi : iota .tc S256x2048 32 [1] iota_S256x2048_d1_w32 (ix2 r k) = BitVec.ofNat 32 k.val := laneIota_apply _ r k
  have hs : matmul Cert.KernelIdeal.dot_S256x64_S2048x64_S256x2048_1_1_0_0_n_n none
      (truncf .bf16 (mulf (shapeCast S256x64 x0 shapeCasts_S1x256x64_S256x64) (broadcast S256x64 (Scalar.ofBits (F := Ideal) .f32 0x3E000000#32))) bitsLt_bf16_f32)
      (truncf .bf16 (shapeCast S2048x64 x1 shapeCasts_S1x2048x64_S2048x64) bitsLt_bf16_f32)
      (constant (F := Ideal) S256x2048 .f32 0x00000000#32) (ix2 r k) = blockScore x0 x1 r k := by
    refine (scores_apply _ _ r k).trans ?_
    refine Finset.sum_congr rfl fun d _ => ?_
    show (shapeCast S256x64 x0 shapeCasts_S1x256x64_S256x64 (ix2 r d) * Ideal.ofBits .f32 0x3E000000#32)
        * shapeCast S2048x64 x1 shapeCasts_S1x2048x64_S2048x64 (ix2 k d) = _
    rw [shapeCast_1ab_ab_apply, shapeCast_1ab_ab_apply]
  show Scalar.select (IntOp.cmpi .slt (iota .tc S256x2048 32 [1] iota_S256x2048_d1_w32 (ix2 r k)) v1) _ (Ideal.ofBits .f32 0xC9742400#32) = _
  rw [hi, hs]
  rfl

/-- The shifted exponentials of the block: the exponential of the masked scores less their row's maximum. -/
private def expBlock (v1 : Elt Ideal .i32) (x0 : Vec Ideal S1x256x64 .f32) (x1 : Vec Ideal S1x2048x64 .f32) : FVec Ideal S256x2048 .f32 :=
  Idealize.ShloMosaic.exp (subf (maskedBlock v1 x0 x1)
    (broadcastTo S256x2048 (shapeCast S256x1
      (multiReduction .maximumf [1] S256 (maskedBlock v1 x0 x1) 0xFF800000#32 reduces_S256x2048_S256 (.inl rfl) rfl)
      shapeCasts_S256_S256x1) broadcasts_S256x1_S256x2048))

/-- The shifted exponentials at (r, k). -/
private theorem expBlock_apply (v1 : Elt Ideal .i32) (x0 : Vec Ideal S1x256x64 .f32) (x1 : Vec Ideal S1x2048x64 .f32) (r : Fin 256) (k : Fin 2048) :
    expBlock v1 x0 x1 (ix2 r k)
      = Ideal.exp (Attn.maskedRow (blockScore x0 x1 r) v1 k - Attn.rowMax (Attn.maskedRow (blockScore x0 x1 r) v1)) := by
  have hm : multiReduction .maximumf [1] S256 (maskedBlock v1 x0 x1) 0xFF800000#32 reduces_S256x2048_S256 (.inl rfl) rfl (ix1 r)
      = Attn.rowMax (Attn.maskedRow (blockScore x0 x1 r) v1) := by
    refine (laneMax_apply (maskedBlock v1 x0 x1) reduces_S256x2048_S256 (.inl rfl) rfl r).trans ?_
    exact congrArg (fun g : Fin 2048 → EReal => Finset.fold max (Ideal.ofBits .f32 0xFF800000#32) g Finset.univ)
      (funext fun k' => maskedBlock_apply v1 x0 x1 r k')
  show Ideal.exp (maskedBlock v1 x0 x1 (ix2 r k)
      - broadcastTo S256x2048 (shapeCast S256x1
          (multiReduction .maximumf [1] S256 (maskedBlock v1 x0 x1) 0xFF800000#32 reduces_S256x2048_S256 (.inl rfl) rfl)
          shapeCasts_S256_S256x1) broadcasts_S256x1_S256x2048 (ix2 r k)) = _
  rw [keepdims_apply, hm, maskedBlock_apply]

/-- The body's weights are the shifted exponentials over their lane sums. -/
private theorem pay1_eq (v1 : Elt Ideal .i32) (x0 : Vec Ideal S1x256x64 .f32) (x1 : Vec Ideal S1x2048x64 .f32) :
    k0_pay1 (F := Ideal) v1 x0 x1
      = divf (expBlock v1 x0 x1) (broadcastTo S256x2048 (shapeCast S256x1
          (multiReduction .add [1] S256 (expBlock v1 x0 x1) 0x00000000#32 reduces_S256x2048_S256 (.inl rfl) rfl)
          shapeCasts_S256_S256x1) broadcasts_S256x1_S256x2048) := rfl

/-- The body's weights (before the store's reshape) at (r, k). -/
theorem pay1_apply (v1 : Elt Ideal .i32) (x0 : Vec Ideal S1x256x64 .f32) (x1 : Vec Ideal S1x2048x64 .f32) (r : Fin 256) (k : Fin 2048) :
    k0_pay1 (F := Ideal) v1 x0 x1 (ix2 r k) = Attn.softmaxRow (Attn.maskedRow (blockScore x0 x1 r) v1) k := by
  have hs : multiReduction .add [1] S256 (expBlock v1 x0 x1) 0x00000000#32 reduces_S256x2048_S256 (.inl rfl) rfl (ix1 r)
      = ∑ k' : Fin 2048, Ideal.exp (Attn.maskedRow (blockScore x0 x1 r) v1 k' - Attn.rowMax (Attn.maskedRow (blockScore x0 x1 r) v1)) := by
    refine (laneSum_apply (expBlock v1 x0 x1) reduces_S256x2048_S256 (.inl rfl) rfl r).trans ?_
    exact Finset.sum_congr rfl fun k' _ => expBlock_apply v1 x0 x1 r k'
  rw [pay1_eq]
  show Ideal.div (expBlock v1 x0 x1 (ix2 r k))
      (broadcastTo S256x2048 (shapeCast S256x1
        (multiReduction .add [1] S256 (expBlock v1 x0 x1) 0x00000000#32 reduces_S256x2048_S256 (.inl rfl) rfl)
        shapeCasts_S256_S256x1) broadcasts_S256x1_S256x2048 (ix2 r k)) = _
  rw [keepdims_apply, hs, expBlock_apply]
  rfl

/-- The stored weights block at (0, r, k). -/
theorem pay2_apply (v1 : Elt Ideal .i32) (x0 : Vec Ideal S1x256x64 .f32) (x1 : Vec Ideal S1x2048x64 .f32) (r : Fin 256) (k : Fin 2048) :
    k0_pay2 (F := Ideal) v1 x0 x1 (ix3 0 r k) = Attn.softmaxRow (Attn.maskedRow (blockScore x0 x1 r) v1) k := by
  unfold k0_pay2
  exact (shapeCast_ab_1ab_apply (k0_pay1 (F := Ideal) v1 x0 x1) shapeCasts_S256x2048_S1x256x2048 0 r k).trans (pay1_apply v1 x0 x1 r k)

/-- The stored output block at (0, r, d). -/
theorem pay3_apply (v1 : Elt Ideal .i32) (x0 : Vec Ideal S1x256x64 .f32) (x1 x2 : Vec Ideal S1x2048x64 .f32) (r : Fin 256) (d : Fin 64) :
    k0_pay3 (F := Ideal) v1 x0 x1 x2 (ix3 0 r d)
      = ∑ k : Fin 2048, Attn.softmaxRow (Attn.maskedRow (blockScore x0 x1 r) v1) k * x2 (ix3 0 k d) := by
  unfold k0_pay3
  refine (shapeCast_ab_1ab_apply _ shapeCasts_S256x64_S1x256x64 0 r d).trans ?_
  refine (out_apply _ _ r d).trans ?_
  refine Finset.sum_congr rfl fun k _ => ?_
  show k0_pay1 (F := Ideal) v1 x0 x1 (ix2 r k) * shapeCast S2048x64 x2 shapeCasts_S1x2048x64_S2048x64 (ix2 k d) = _
  rw [pay1_apply, shapeCast_1ab_ab_apply]

end Attn.Body

end
-- ==== Proof.KernelValue.lean ====
/-
  The kernel's run with its two result arrays named: after the run the output array is `Attn.output` and the weights
  array is `Attn.weights` of the argument arrays.

  The grid has 256 points; point `t` works on batch `t / 8` and on the tile of 256 query rows starting at row
  `(t % 8) * 256`. At that point the body holds the tile's query rows, all 2048 key rows and value rows of the batch,
  and the batch's valid length (the word of the length table at `t / 8`); what it leaves in the two output blocks is
  the arithmetic of Proof/Body.lean on those, which is the specification's weights and output read through the point's
  blocks: rows `(t % 8) * 256 + r` of batch `t / 8`. Every point writes its two blocks back, and the blocks of the
  256 points cover both result arrays (row `q` of batch `b` lies in the block of point `8 b + q / 256`).
-/
import proofs.«403861_j78494822301741_3_alg».proof.Proof.Gen.KernelIdeal.Frame
import proofs.«403861_j78494822301741_3_alg».proof.Proof.Body
import Idealize.ShloMosaic.Lib.Pipeline.Value
import Idealize.ShloMosaic.Lib.Tactic

set_option maxRecDepth 16384

noncomputable section

namespace Attn.Kernel

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0, 0] : Fin 3 → Nat) = fun _ => 0 := funext fun a => by fin_cases a <;> rfl

/-! ## What one point leaves in its two output blocks -/

/-- The valid length the body loads at grid coordinates `i`: the one word of the length table at the batch coordinate. -/
def lenOf (c : Dev nD) (i : grid0.Coords) (xt0 : TbBuf0 (F := Ideal) c tbM0_0) : Elt Ideal .i32 :=
  View.readAt (Elt Ideal) tbM0_0.view (Rect.unit (s := S32) (k0_off1 i) S1.size (Facts₀.k0_off1_inb i)).toLoadRect xt0
    (Shape.Idx.first (Facts₀.numel1_S1.symm ▸ Nat.one_pos))

/-- The output block a point leaves is its one covering store's value: the body's output arithmetic of the loaded blocks. -/
theorem out3_eq (c : Dev nD) (i : grid0.Coords) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x256x64 .f32) (harg6 : arg6.IsWhole) (arg7 : Memref sig .tc .vmem S1x256x2048 .f32) (harg7 : arg7.IsWhole)
    (x0 : Vec Ideal S1x256x64 .f32) (x1 : Vec Ideal S1x2048x64 .f32) (x2 : Vec Ideal S1x2048x64 .f32) (xt0 : TbBuf0 (F := Ideal) c tbM0_0) :
    out0_A_3 c i arg3 harg3 arg4 harg4 arg5 harg5 arg6 harg6 arg7 harg7 x0 x1 x2 xt0 = k0_pay3 (lenOf c i xt0) x0 x1 x2 := by
  unfold out0_A_3
  rw [View.read_writes_eq_canon _ _ _ (cover0_A_3 c i arg3 harg3 arg4 harg4 arg5 harg5 arg6 harg6 arg7 harg7 x0 x1 x2 xt0)]
  unfold kernelRun0_A
  dsimp only
  sl_unfold_words
  rw [View.canon_unit_zero hz]
  simp only [View.readAt_eq_ld, harg3.read_unread, harg4.read_unread, harg5.read_unread, View.ld_unit_zero (S := S1x256x64) hz, View.ld_unit_zero (S := S1x2048x64) hz]
  rfl

/-- The weights block a point leaves is its one covering store's value: the body's weights of the loaded blocks. -/
theorem out4_eq (c : Dev nD) (i : grid0.Coords) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x256x64 .f32) (harg6 : arg6.IsWhole) (arg7 : Memref sig .tc .vmem S1x256x2048 .f32) (harg7 : arg7.IsWhole)
    (x0 : Vec Ideal S1x256x64 .f32) (x1 : Vec Ideal S1x2048x64 .f32) (x2 : Vec Ideal S1x2048x64 .f32) (xt0 : TbBuf0 (F := Ideal) c tbM0_0) :
    out0_A_4 c i arg3 harg3 arg4 harg4 arg5 harg5 arg6 harg6 arg7 harg7 x0 x1 x2 xt0 = k0_pay2 (lenOf c i xt0) x0 x1 := by
  unfold out0_A_4
  rw [View.read_writes_eq_canon _ _ _ (cover0_A_4 c i arg3 harg3 arg4 harg4 arg5 harg5 arg6 harg6 arg7 harg7 x0 x1 x2 xt0)]
  unfold kernelRun0_A
  dsimp only
  sl_unfold_words
  rw [View.canon_unit_zero hz]
  simp only [View.readAt_eq_ld, harg3.read_unread, harg4.read_unread, harg5.read_unread, View.ld_unit_zero (S := S1x256x64) hz, View.ld_unit_zero (S := S1x2048x64) hz]
  rfl

/-! ## The grid: point `t` is batch `t / 8`, query tile `t % 8` -/

/-- The block index of every window and the table offset at point `t`, decided over the 256 points. -/
theorem grid_facts : ∀ t : Fin grid0.N,
    k0_off1 (grid0.coords t) 0 = t.val / 8
    ∧ cc0_transform_0 (grid0.coords t) 0 = t.val / 8 ∧ cc0_transform_0 (grid0.coords t) 1 = t.val % 8 ∧ cc0_transform_0 (grid0.coords t) 2 = 0
    ∧ cc0_transform_1 (grid0.coords t) 0 = t.val / 8 ∧ cc0_transform_1 (grid0.coords t) 1 = 0 ∧ cc0_transform_1 (grid0.coords t) 2 = 0
    ∧ cc0_transform_2 (grid0.coords t) 0 = t.val / 8 ∧ cc0_transform_2 (grid0.coords t) 1 = 0 ∧ cc0_transform_2 (grid0.coords t) 2 = 0
    ∧ cc0_transform_3 (grid0.coords t) 0 = t.val / 8 ∧ cc0_transform_3 (grid0.coords t) 1 = t.val % 8 ∧ cc0_transform_3 (grid0.coords t) 2 = 0
    ∧ cc0_transform_4 (grid0.coords t) 0 = t.val / 8 ∧ cc0_transform_4 (grid0.coords t) 1 = t.val % 8 ∧ cc0_transform_4 (grid0.coords t) 2 = 0 := by
  decide +kernel

/-- The batch of point `t`. -/
def bOf (t : Fin grid0.N) : Fin 32 := ⟨t.val / 8, by have h : t.val < grid0.N := t.isLt; have hN : grid0.N = 256 := N_0; omega⟩

/-- Row `r` of point `t`'s query tile, as a row of the batch. -/
def rowOf (t : Fin grid0.N) (r : Fin 256) : Fin 2048 := ⟨t.val % 8 * 256 + r.val, by have h := r.isLt; omega⟩

variable (m : (ℓ : Loc nD τ sig) → Buf (Elt Ideal) ℓ) (ρ : Dev nD → PrngReg)

/-- No block index reads the length table, so the side condition on its contents is `True`. -/
abbrev hO : Ok m := trivial

/-- The valid length point `t` loads is the table's word at the point's batch. -/
theorem lenOf_eq (c : Dev nD) (t : Fin (cfgM m (hO m)).N) :
    lenOf c (grid0.coords t) (tbl m 0) = (m ((c.tc : Thread nD τ).loc main_arg3)) (ix1 (bOf t)) := by
  obtain rfl : c = 0 := Subsingleton.elim _ _
  unfold lenOf
  show m (((0 : Dev nD).tc : Thread nD τ).loc main_arg3) ((Rect.unit (s := S32) (k0_off1 (grid0.coords t)) S1.size (Facts₀.k0_off1_inb (grid0.coords t))).toLoadRect.idx (Shape.Idx.first (Facts₀.numel1_S1.symm ▸ Nat.one_pos))) = _
  refine congrArg (m (((0 : Dev nD).tc : Thread nD τ).loc main_arg3)) (funext fun a => Fin.ext ?_)
  match a with
  | ⟨0, _⟩ =>
    show k0_off1 (grid0.coords t) 0 + 1 * 0 = t.val / 8
    rw [(grid_facts t).1]; omega

/-- Point `t`'s query block at (0, r, d) is the queries at (t / 8, (t % 8) * 256 + r, d). -/
theorem qblk_apply (c : Dev nD) (t : Fin (cfgM m (hO m)).N) (r : Fin 256) (d : Fin 64) :
    (iblk m (hO m) c 0 t : Vec Ideal S1x256x64 .f32) (ix3 0 r d) = (m ((c.tc : Thread nD τ).loc main_arg0)) (ix3 (bOf t) (rowOf t r) d) := by
  unfold iblk
  show m ((c.tc : Thread nD τ).loc main_arg0) ((((cfgM m (hO m)).win 0).blk t).view.emb (ix3 0 r d)) = _
  refine congrArg (m ((c.tc : Thread nD τ).loc main_arg0)) (funext fun a => Fin.ext ?_)
  match a with
  | ⟨0, _⟩ =>
    show cc0_transform_0 (grid0.coords t) 0 * 1 + 1 * 0 = t.val / 8
    rw [(grid_facts t).2.1]; omega
  | ⟨1, _⟩ =>
    show cc0_transform_0 (grid0.coords t) 1 * 256 + 1 * r.val = t.val % 8 * 256 + r.val
    rw [(grid_facts t).2.2.1]; omega
  | ⟨2, _⟩ =>
    show cc0_transform_0 (grid0.coords t) 2 * 64 + 1 * d.val = d.val
    rw [(grid_facts t).2.2.2.1]; omega

/-- Point `t`'s key block at (0, k, d) is the keys at (t / 8, k, d). -/
theorem kblk_apply (c : Dev nD) (t : Fin (cfgM m (hO m)).N) (k : Fin 2048) (d : Fin 64) :
    (iblk m (hO m) c 1 t : Vec Ideal S1x2048x64 .f32) (ix3 0 k d) = (m ((c.tc : Thread nD τ).loc main_arg1)) (ix3 (bOf t) k d) := by
  unfold iblk
  show m ((c.tc : Thread nD τ).loc main_arg1) ((((cfgM m (hO m)).win 1).blk t).view.emb (ix3 0 k d)) = _
  refine congrArg (m ((c.tc : Thread nD τ).loc main_arg1)) (funext fun a => Fin.ext ?_)
  match a with
  | ⟨0, _⟩ =>
    show cc0_transform_1 (grid0.coords t) 0 * 1 + 1 * 0 = t.val / 8
    rw [(grid_facts t).2.2.2.2.1]; omega
  | ⟨1, _⟩ =>
    show cc0_transform_1 (grid0.coords t) 1 * 2048 + 1 * k.val = k.val
    rw [(grid_facts t).2.2.2.2.2.1]; omega
  | ⟨2, _⟩ =>
    show cc0_transform_1 (grid0.coords t) 2 * 64 + 1 * d.val = d.val
    rw [(grid_facts t).2.2.2.2.2.2.1]; omega

/-- Point `t`'s value block at (0, k, d) is the values at (t / 8, k, d). -/
theorem vblk_apply (c : Dev nD) (t : Fin (cfgM m (hO m)).N) (k : Fin 2048) (d : Fin 64) :
    (iblk m (hO m) c 2 t : Vec Ideal S1x2048x64 .f32) (ix3 0 k d) = (m ((c.tc : Thread nD τ).loc main_arg2)) (ix3 (bOf t) k d) := by
  unfold iblk
  show m ((c.tc : Thread nD τ).loc main_arg2) ((((cfgM m (hO m)).win 2).blk t).view.emb (ix3 0 k d)) = _
  refine congrArg (m ((c.tc : Thread nD τ).loc main_arg2)) (funext fun a => Fin.ext ?_)
  match a with
  | ⟨0, _⟩ =>
    show cc0_transform_2 (grid0.coords t) 0 * 1 + 1 * 0 = t.val / 8
    rw [(grid_facts t).2.2.2.2.2.2.2.1]; omega
  | ⟨1, _⟩ =>
    show cc0_transform_2 (grid0.coords t) 1 * 2048 + 1 * k.val = k.val
    rw [(grid_facts t).2.2.2.2.2.2.2.2.1]; omega
  | ⟨2, _⟩ =>
    show cc0_transform_2 (grid0.coords t) 2 * 64 + 1 * d.val = d.val
    rw [(grid_facts t).2.2.2.2.2.2.2.2.2.1]; omega

/-- The scaled scores of row `r` of point `t`'s tile against the batch's keys are the specification's score row. -/
theorem score_eq (c : Dev nD) (t : Fin (cfgM m (hO m)).N) (r : Fin 256) :
    Attn.Body.blockScore (iblk m (hO m) c 0 t) (iblk m (hO m) c 1 t) r = Attn.score (m ((c.tc : Thread nD τ).loc main_arg0)) (m ((c.tc : Thread nD τ).loc main_arg1)) (bOf t) (rowOf t r) := by
  funext k
  unfold Attn.Body.blockScore Attn.score
  refine Finset.sum_congr rfl fun d _ => ?_
  exact congrArg₂ (fun a b : EReal => a * Attn.eighth * b) (qblk_apply m c t r d) (kblk_apply m c t k d)

/-- The weights row of row `r` of point `t`'s tile, as the body computes it, is the specification's. -/
theorem wrow_eq (c : Dev nD) (t : Fin (cfgM m (hO m)).N) (r : Fin 256) (k : Fin 2048) :
    Attn.softmaxRow (Attn.maskedRow (Attn.Body.blockScore (iblk m (hO m) c 0 t) (iblk m (hO m) c 1 t) r) (lenOf c (grid0.coords t) (tbl m 0))) k
      = Attn.weightsAt (m ((c.tc : Thread nD τ).loc main_arg0)) (m ((c.tc : Thread nD τ).loc main_arg1)) (m ((c.tc : Thread nD τ).loc main_arg3)) (bOf t) (rowOf t r) k := by
  unfold Attn.weightsAt
  rw [score_eq m c t r, lenOf_eq m c t]

/-! ## What each point writes back -/

set_option backward.isDefEq.respectTransparency.types false in
/-- Point `t` writes back, as its weights block, the specification's weights read through the block. -/
theorem flushed4 (c : Dev nD) (t : Fin (cfgM m (hO m)).N) :
    (dats m (hO m) 0 c).flushed 4 t = (((cfgM m (hO m)).win 4).blk t).view.read (Elt Ideal) (Attn.weights (m ((c.tc : Thread nD τ).loc main_arg0)) (m ((c.tc : Thread nD τ).loc main_arg1)) (m ((c.tc : Thread nD τ).loc main_arg3))) := by
  show ((cfgM m (hO m)).win 4).cut (grid0.coords t) ((dats m (hO m) 0 c).after 4 t) = _
  rw [after0_4]
  unfold outsAt0
  dsimp only
  rw [out4_eq]
  refine funext fun (y : S1x256x2048.Idx) => ?_
  obtain ⟨z, r, k, rfl⟩ : ∃ (z : Fin 1) (r : Fin 256) (k : Fin 2048), y = ix3 z r k := ⟨y 0, y 1, y 2, eq_ix3 y⟩
  obtain rfl : z = 0 := Subsingleton.elim _ _
  refine (Attn.Body.pay2_apply _ _ _ r k).trans ?_
  refine (wrow_eq m c t r k).trans ?_
  show _ = Attn.weights (m ((c.tc : Thread nD τ).loc main_arg0)) (m ((c.tc : Thread nD τ).loc main_arg1)) (m ((c.tc : Thread nD τ).loc main_arg3)) ((((cfgM m (hO m)).win 4).blk t).view.emb (ix3 0 r k))
  refine (Attn.weights_ix3 _ _ _ (bOf t) (rowOf t r) k).symm.trans (congrArg (Attn.weights (m ((c.tc : Thread nD τ).loc main_arg0)) (m ((c.tc : Thread nD τ).loc main_arg1)) (m ((c.tc : Thread nD τ).loc main_arg3))) (funext fun a => Fin.ext ?_))
  match a with
  | ⟨0, _⟩ =>
    show t.val / 8 = cc0_transform_4 (grid0.coords t) 0 * 1 + 1 * 0
    rw [(grid_facts t).2.2.2.2.2.2.2.2.2.2.2.2.2.1]; omega
  | ⟨1, _⟩ =>
    show t.val % 8 * 256 + r.val = cc0_transform_4 (grid0.coords t) 1 * 256 + 1 * r.val
    rw [(grid_facts t).2.2.2.2.2.2.2.2.2.2.2.2.2.2.1]; omega
  | ⟨2, _⟩ =>
    show k.val = cc0_transform_4 (grid0.coords t) 2 * 2048 + 1 * k.val
    rw [(grid_facts t).2.2.2.2.2.2.2.2.2.2.2.2.2.2.2]; omega

set_option backward.isDefEq.respectTransparency.types false in
/-- Point `t` writes back, as its output block, the specification's output read through the block. -/
theorem flushed3 (c : Dev nD) (t : Fin (cfgM m (hO m)).N) :
    (dats m (hO m) 0 c).flushed 3 t = (((cfgM m (hO m)).win 3).blk t).view.read (Elt Ideal) (Attn.output (m ((c.tc : Thread nD τ).loc main_arg0)) (m ((c.tc : Thread nD τ).loc main_arg1)) (m ((c.tc : Thread nD τ).loc main_arg2)) (m ((c.tc : Thread nD τ).loc main_arg3))) := by
  show ((cfgM m (hO m)).win 3).cut (grid0.coords t) ((dats m (hO m) 0 c).after 3 t) = _
  rw [after0_3]
  unfold outsAt0
  dsimp only
  rw [out3_eq]
  refine funext fun (y : S1x256x64.Idx) => ?_
  obtain ⟨z, r, d, rfl⟩ : ∃ (z : Fin 1) (r : Fin 256) (d : Fin 64), y = ix3 z r d := ⟨y 0, y 1, y 2, eq_ix3 y⟩
  obtain rfl : z = 0 := Subsingleton.elim _ _
  refine (Attn.Body.pay3_apply _ _ _ _ r d).trans ?_
  refine (Finset.sum_congr rfl fun k _ => congrArg₂ (fun a b : EReal => a * b) (wrow_eq m c t r k) (vblk_apply m c t k d)).trans ?_
  show Attn.outputAt (m ((c.tc : Thread nD τ).loc main_arg0)) (m ((c.tc : Thread nD τ).loc main_arg1)) (m ((c.tc : Thread nD τ).loc main_arg2)) (m ((c.tc : Thread nD τ).loc main_arg3)) (bOf t) (rowOf t r) d = Attn.output (m ((c.tc : Thread nD τ).loc main_arg0)) (m ((c.tc : Thread nD τ).loc main_arg1)) (m ((c.tc : Thread nD τ).loc main_arg2)) (m ((c.tc : Thread nD τ).loc main_arg3)) ((((cfgM m (hO m)).win 3).blk t).view.emb (ix3 0 r d))
  refine (Attn.output_ix3 _ _ _ _ (bOf t) (rowOf t r) d).symm.trans (congrArg (Attn.output (m ((c.tc : Thread nD τ).loc main_arg0)) (m ((c.tc : Thread nD τ).loc main_arg1)) (m ((c.tc : Thread nD τ).loc main_arg2)) (m ((c.tc : Thread nD τ).loc main_arg3))) (funext fun a => Fin.ext ?_))
  match a with
  | ⟨0, _⟩ =>
    show t.val / 8 = cc0_transform_3 (grid0.coords t) 0 * 1 + 1 * 0
    rw [(grid_facts t).2.2.2.2.2.2.2.2.2.2.1]; omega
  | ⟨1, _⟩ =>
    show t.val % 8 * 256 + r.val = cc0_transform_3 (grid0.coords t) 1 * 256 + 1 * r.val
    rw [(grid_facts t).2.2.2.2.2.2.2.2.2.2.2.1]; omega
  | ⟨2, _⟩ =>
    show d.val = cc0_transform_3 (grid0.coords t) 2 * 64 + 1 * d.val
    rw [(grid_facts t).2.2.2.2.2.2.2.2.2.2.2.2.1]; omega

/-! ## The blocks cover the result arrays -/

/-- The point whose blocks hold row `q` of batch `b`. -/
def ptOf (b : Nat) (q : Nat) (hb : b < 32) (hq : q < 2048) : Fin grid0.N :=
  ⟨b * 8 + q / 256, by have hN : grid0.N = 256 := N_0; omega⟩

set_option backward.isDefEq.respectTransparency.types false in
/-- Every index of the weights array lies in some point's block. -/
theorem cover4 (c : Dev nD) (i : S32x2048x2048.Idx) :
    ∃ t : Fin (cfgM m (hO m)).N, ((cfgM m (hO m)).win 4).flush t = true ∧ i ∈ (((cfgM m (hO m)).win 4).blk t).view.set := by
  have h0 : (i 0).val < 32 := (i 0).isLt
  have h1 : (i 1).val < 2048 := (i 1).isLt
  have h2 : (i 2).val < 2048 := (i 2).isLt
  refine ⟨ptOf (i 0).val (i 1).val h0 h1, flush0_4 (adm m (hO m)) _, ?_⟩
  show i ∈ ((View.whole main_v0_1).slice (((cfgM m (hO m)).win 4).rect (ptOf (i 0).val (i 1).val h0 h1))).set
  rw [View.set_slice_whole]
  have hv : (ptOf (i 0).val (i 1).val h0 h1).val = (i 0).val * 8 + (i 1).val / 256 := rfl
  obtain ⟨-, -, -, -, -, -, -, -, -, -, -, -, -, e0, e1, e2⟩ := grid_facts (ptOf (i 0).val (i 1).val h0 h1)
  refine Rect.mem_set_unit.mpr fun a => ?_
  match a with
  | ⟨0, _⟩ =>
    show cc0_transform_4 (grid0.coords (ptOf (i 0).val (i 1).val h0 h1)) 0 * 1 ≤ (i 0).val ∧ (i 0).val < cc0_transform_4 (grid0.coords (ptOf (i 0).val (i 1).val h0 h1)) 0 * 1 + 1
    rw [e0, hv]; omega
  | ⟨1, _⟩ =>
    show cc0_transform_4 (grid0.coords (ptOf (i 0).val (i 1).val h0 h1)) 1 * 256 ≤ (i 1).val ∧ (i 1).val < cc0_transform_4 (grid0.coords (ptOf (i 0).val (i 1).val h0 h1)) 1 * 256 + 256
    rw [e1, hv]; omega
  | ⟨2, _⟩ =>
    show cc0_transform_4 (grid0.coords (ptOf (i 0).val (i 1).val h0 h1)) 2 * 2048 ≤ (i 2).val ∧ (i 2).val < cc0_transform_4 (grid0.coords (ptOf (i 0).val (i 1).val h0 h1)) 2 * 2048 + 2048
    rw [e2]; omega

set_option backward.isDefEq.respectTransparency.types false in
/-- Every index of the output array lies in some point's block. -/
theorem cover3 (c : Dev nD) (i : S32x2048x64.Idx) :
    ∃ t : Fin (cfgM m (hO m)).N, ((cfgM m (hO m)).win 3).flush t = true ∧ i ∈ (((cfgM m (hO m)).win 3).blk t).view.set := by
  have h0 : (i 0).val < 32 := (i 0).isLt
  have h1 : (i 1).val < 2048 := (i 1).isLt
  have h2 : (i 2).val < 64 := (i 2).isLt
  refine ⟨ptOf (i 0).val (i 1).val h0 h1, flush0_3 (adm m (hO m)) _, ?_⟩
  show i ∈ ((View.whole main_v0_0).slice (((cfgM m (hO m)).win 3).rect (ptOf (i 0).val (i 1).val h0 h1))).set
  rw [View.set_slice_whole]
  have hv : (ptOf (i 0).val (i 1).val h0 h1).val = (i 0).val * 8 + (i 1).val / 256 := rfl
  obtain ⟨-, -, -, -, -, -, -, -, -, -, e0, e1, e2, -, -, -⟩ := grid_facts (ptOf (i 0).val (i 1).val h0 h1)
  refine Rect.mem_set_unit.mpr fun a => ?_
  match a with
  | ⟨0, _⟩ =>
    show cc0_transform_3 (grid0.coords (ptOf (i 0).val (i 1).val h0 h1)) 0 * 1 ≤ (i 0).val ∧ (i 0).val < cc0_transform_3 (grid0.coords (ptOf (i 0).val (i 1).val h0 h1)) 0 * 1 + 1
    rw [e0, hv]; omega
  | ⟨1, _⟩ =>
    show cc0_transform_3 (grid0.coords (ptOf (i 0).val (i 1).val h0 h1)) 1 * 256 ≤ (i 1).val ∧ (i 1).val < cc0_transform_3 (grid0.coords (ptOf (i 0).val (i 1).val h0 h1)) 1 * 256 + 256
    rw [e1, hv]; omega
  | ⟨2, _⟩ =>
    show cc0_transform_3 (grid0.coords (ptOf (i 0).val (i 1).val h0 h1)) 2 * 64 ≤ (i 2).val ∧ (i 2).val < cc0_transform_3 (grid0.coords (ptOf (i 0).val (i 1).val h0 h1)) 2 * 64 + 64
    rw [e2]; omega

/-! ## The arrays after the run, and the run -/

/-- The weights array ends holding the specification's weights. -/
theorem final4 (c : Dev nD) : (dats m (hO m) 0 c).arrAt 4 (cfgM m (hO m)).N = Attn.weights (m ((c.tc : Thread nD τ).loc main_arg0)) (m ((c.tc : Thread nD τ).loc main_arg1)) (m ((c.tc : Thread nD τ).loc main_arg3)) :=
  (dats m (hO m) 0 c).arrAt_eq_of_cover 4 (Attn.weights (m ((c.tc : Thread nD τ).loc main_arg0)) (m ((c.tc : Thread nD τ).loc main_arg1)) (m ((c.tc : Thread nD τ).loc main_arg3))) (fun t _ => flushed4 m c t) (cover4 m c)

/-- The output array ends holding the specification's output. -/
theorem final3 (c : Dev nD) : (dats m (hO m) 0 c).arrAt 3 (cfgM m (hO m)).N = Attn.output (m ((c.tc : Thread nD τ).loc main_arg0)) (m ((c.tc : Thread nD τ).loc main_arg1)) (m ((c.tc : Thread nD τ).loc main_arg2)) (m ((c.tc : Thread nD τ).loc main_arg3)) :=
  (dats m (hO m) 0 c).arrAt_eq_of_cover 3 (Attn.output (m ((c.tc : Thread nD τ).loc main_arg0)) (m ((c.tc : Thread nD τ).loc main_arg1)) (m ((c.tc : Thread nD τ).loc main_arg2)) (m ((c.tc : Thread nD τ).loc main_arg3))) (fun t _ => flushed3 m c t) (cover3 m c)

/-- The kernel's run: every weakly fair execution terminates with the output array at `Attn.output` and the weights
    array at `Attn.weights` of the argument arrays, the arguments unchanged. -/
theorem run :
    θ_run (defs (F := Ideal)) (onTc (τ := τ) (main (F := Ideal))) ⟨m, fun _ => 0, ρ⟩ (fun r => ∀ c : Dev nD,
      r.2.mem ((c.tc : Thread nD τ).loc main_v0_0) = Attn.output (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = Attn.weights (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans (final3 m c), ((h c).1 4).trans (final4 m c),
      ((h c).1 0).trans (((dats m (hO m) 0 c).arrAt_in 0 rfl _).trans ((A_eq m (hO m) c 0).trans (V_main_arg0 m c))),
      ((h c).1 1).trans (((dats m (hO m) 0 c).arrAt_in 1 rfl _).trans ((A_eq m (hO m) c 1).trans (V_main_arg1 m c))),
      ((h c).1 2).trans (((dats m (hO m) 0 c).arrAt_in 2 rfl _).trans ((A_eq m (hO m) c 2).trans (V_main_arg2 m c))),
      ((h c).2 main_arg3 (by decide : main_arg3 ∈ Pipeline.restRefs sig spec0)).trans (V_main_arg3 m c)⟩)
    (run_main m ρ (hO m))

end Attn.Kernel

end
-- ==== Proof.lean ====
/-
  Scaled dot-product attention with a per-batch valid length, on queries, keys, values of shape [32, 2048, 64]:
  a kernel that, per batch and per tile of 256 query rows, forms the scores of the tile against all 2048 key rows
  (the scale 1/8 = 1/sqrt 64 multiplied into the query entries), masks the key positions at or beyond the batch's
  valid length with -1e6, takes the row softmax (shifted by the row maximum) as the attention weights and multiplies
  them into the values; against the reference that divides the unscaled scores by sqrt 64, masks, takes the same
  softmax and the same product.

  Over the extended reals both compute `Attn.weights` and `Attn.output` (Proof/Spec.lean). The one law between the
  two sides is that the factor 1/8 moves out of the sum over the 64 features:
      sum_d (Q[b,q,d] * 1/8) * K[b,k,d]  =  (sum_d Q[b,q,d] * K[b,k,d]) / sqrt 64,
  which holds because the queries' and keys' entries are real numbers (the precondition; Proof/Finite.lean) and
  sqrt 64 = 8. Everything after the scores is the same expression on both sides: the mask compares the same words, a
  row maximum folded from -infinity is the same fold, and the reference's extra maximum with -infinity is the identity.
  The kernel's arrays after its run are read off its frame run block by block (Proof/KernelValue.lean over
  Proof/Body.lean); the reference's results off its run, stage by stage (Proof/RefSide.lean).
  The kernel reads the valid lengths as a prefetched table, but no block index depends on it, so the side condition
  of the table's contents is `True`.
-/
import proofs.«403861_j78494822301741_3_alg».proof.Defs
import proofs.«403861_j78494822301741_3_alg».proof.Proof.Gen.Kernel
import proofs.«403861_j78494822301741_3_alg».proof.Proof.Gen.Kernel.Skeleton
import proofs.«403861_j78494822301741_3_alg».proof.Proof.Gen.Kernel.Launch
import proofs.«403861_j78494822301741_3_alg».proof.Proof.Gen.Kernel.Points
import proofs.«403861_j78494822301741_3_alg».proof.Proof.Gen.Kernel.Frame
import proofs.«403861_j78494822301741_3_alg».proof.Proof.Gen.KernelIdeal
import proofs.«403861_j78494822301741_3_alg».proof.Proof.Gen.KernelIdeal.Skeleton
import proofs.«403861_j78494822301741_3_alg».proof.Proof.Gen.KernelIdeal.Launch
import proofs.«403861_j78494822301741_3_alg».proof.Proof.Gen.KernelIdeal.Points
import proofs.«403861_j78494822301741_3_alg».proof.Proof.Gen.KernelIdeal.Frame
import proofs.«403861_j78494822301741_3_alg».proof.Proof.Gen.ReferenceIdeal
import proofs.«403861_j78494822301741_3_alg».proof.Proof.Gen.Pre_finite_inputs
import proofs.«403861_j78494822301741_3_alg».proof.Proof.Gen.ReferenceIdeal.Run
import proofs.«403861_j78494822301741_3_alg».proof.Proof.Gen.ReferenceIdeal.Read
import proofs.«403861_j78494822301741_3_alg».proof.Proof.Finite
import proofs.«403861_j78494822301741_3_alg».proof.Proof.RefSide
import proofs.«403861_j78494822301741_3_alg».proof.Proof.KernelValue
import Idealize.ShloMosaic.Adequacy
import Idealize.ShloMosaic.Init

noncomputable section

namespace Cert.Proof

open Idealize.ShloMosaic Idealize.SL.Sem

/-- The word-level kernel runs and keeps its arguments: no block index reads the table, so its side condition is `True`. -/
theorem frame_kernel : Cert.frame_Kernel := fun m ρ _ => Cert.Kernel.Gen.frame m ρ trivial

/-- The same of the kernel over the extended reals. -/
theorem frame_kernelIdeal : Cert.frame_KernelIdeal := fun m ρ _ => Cert.KernelIdeal.Gen.frame m ρ trivial

/-- The reference runs and keeps its arguments: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments, both programs end with `Attn.output` and `Attn.weights` of the
    arguments: the kernel by its run, the reference by its run read stage by stage, the queries' and keys' entries
    being real numbers by the precondition. -/
theorem algebraic : Cert.algebraic_KernelIdeal_ReferenceIdeal := by
  intro m ρ m' ρ' hpre hagree
  refine ⟨_, _, Attn.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · have hf := Attn.Finite.real_of_pre _ _ _ _ (hpre c)
    rw [Cert.ReferenceIdeal.Read.val_main_v22_eq, (hagree c).1, (hagree c).2.1, (hagree c).2.2.1, (hagree c).2.2.2]
    exact Attn.Ref.ref_output _ _ _ _ hf.1 hf.2
  · have hf := Attn.Finite.real_of_pre _ _ _ _ (hpre c)
    rw [Cert.ReferenceIdeal.Read.val_main_v21_eq, (hagree c).1, (hagree c).2.1, (hagree c).2.2.2]
    exact Attn.Ref.ref_weights _ _ _ hf.1 hf.2

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
